-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x1024 : Shape := ⟨2, ![1024, 1024]⟩
abbrev S1024 : Shape := ⟨1, ![1024]⟩
abbrev S32x1024x1024 : Shape := ⟨3, ![32, 1024, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn_part1 {F : FTy → Type} [FloatOps F] (main_arg4 : FVec F S32x1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S32x1024x1024 .f32 := Host.absf main_arg4
  let main_cst_6 : FVec F S_ .f32 := constant S_ .f32 0x7F800000#32
  let main_v20 : FVec F S32x1024x1024 .f32 := broadcastInDim S32x1024x1024 ![] bcast_S_S32x1024x1024 main_cst_6
  let main_v21 : IVec S32x1024x1024 1 := cmpf .olt main_v19 main_v20
  let main_c_7 : IVec S_ 1 := constantI S_ 1 1#1
  let main_v22 : IVec S_ 1 := (fun x v => Host.reduce IntOp.andi x v reducesTo_S32x1024x1024_S_d0_1_2 h_S_) main_v21 main_c_7
  let main_v23 : IVec S_ 1 := andi main_v18 main_v22
  main_v23

def fn {F : FTy → Type} [FloatOps F] (main_arg0 : FVec F S32x512x1024 .f32) (main_arg1 : FVec F S1024x1024 .f32) (main_arg2 : FVec F S1024x1024 .f32) (main_arg3 : FVec F S1024 .f32) (main_arg4 : FVec F S32x1024x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32x512x1024 : Shape := ⟨3, ![32, 512, 1024]⟩
abbrev S1024x1024 : Shape := ⟨2, ![1024, 1024]⟩
abbrev S1024 : Shape := ⟨1, ![1024]⟩
abbrev S32x1024x1024 : Shape := ⟨3, ![32, 1024, 1024]⟩
abbrev S1x1024 : Shape := ⟨2, ![1, 1024]⟩
abbrev S1x256x1024 : Shape := ⟨3, ![1, 256, 1024]⟩
abbrev S1x1024x1024 : Shape := ⟨3, ![1, 1024, 1024]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S32x1024x1024, .f32⟩
  | .hbm, ⟨5, _⟩ => ⟨S1x1024, .f32⟩
  | .hbm, ⟨6, _⟩ => ⟨S32x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1024x1024, .bf16⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x512x1024.size a
  hwx0_0 : ∀ i : grid0.Coords, EltTy.bits .f32 = 32 ∨ (Rect.block (s := S32x512x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x1024x1024.size a
  hwx0_3 : ∀ i : grid0.Coords, EltTy.bits .f32 = 32 ∨ (Rect.block (s := S32x1024x1024) S1x1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S32x512x1024.size a
  hwx0_5 : ∀ i : grid0.Coords, EltTy.bits .f32 = 32 ∨ (Rect.block (s := S32x512x1024) S1x256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x1024 : Shape := ⟨2, ![1024, 1024]⟩
abbrev S1024 : Shape := ⟨1, ![1024]⟩
abbrev S32x1024x1024 : Shape := ⟨3, ![32, 1024, 1024]⟩
abbrev S_ : Shape := ⟨0, ![]⟩
abbrev S1x1024x1024 : Shape := ⟨3, ![1, 1024, 1024]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S32x1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S32x1024x1024, .f32⟩
  | .hbm, ⟨11, _⟩ => ⟨S32x1024x1024, .f32⟩
  | .hbm, ⟨12, _⟩ => ⟨S1x1024x1024, .f32⟩
  | .hbm, ⟨13, _⟩ => ⟨S32x1024x1024, .f32⟩
  | .hbm, ⟨14, _⟩ => ⟨S32x1024x1024, .f32⟩
  | .hbm, ⟨15, _⟩ => ⟨S32x512x1024, .f32⟩
  | .hbm, ⟨16, _⟩ => ⟨S1x1x1024, .f32⟩
  | .hbm, ⟨17, _⟩ => ⟨S32x512x1024, .f32⟩
  | .hbm, ⟨18, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  dot_S32x512x1024_S32x1024x1024_S32x512x1024_2_2_1_1_0_0_wf : DotDims.WF S32x512x1024 S32x1024x1024 S32x512x1024 [2] [2] [1] [1] [0] [0]

variable [Facts₀]

def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf

class Facts : Prop extends Facts₀ where

variable [Facts]
-- ==== Proof.SampledLinear.lean ====
/-
  The function both programs compute, over the extended reals.

  A linear layer whose weight is SAMPLED per batch element: for batch `b` the weight matrix is
  `W_b[o, i] = mean[o, i] + noise[b, o, i] · exp(½ · logvar[o, i])` (the reparameterisation of a Gaussian with
  mean `mean` and log-variance `logvar`), and the output is `y[b, l, o] = (∑ᵢ x[b, l, i] · W_b[o, i]) + bias[o]`.
  The half is the binary32 word `0x3F000000`, kept as a word: both programs carry the same one, so it is never evaluated.
-/
import Idealize.ShloMosaic.PureOps.Ideal
import Idealize.ShloMosaic.Lib.ValueIdx

noncomputable section

open scoped BigOperators

namespace Cert.SampledLinear

open Idealize.ShloMosaic Idealize.ShloMosaic.ValueIdx

/-- The weight sampled for batch element `b`, at output feature `o` and input feature `i`:
    `mean[o, i] + noise[b, o, i] · exp(½ · logvar[o, i])`. -/
def weight (mean logvar : (⟨2, ![1024, 1024]⟩ : Shape).Idx → EReal) (noise : (⟨3, ![32, 1024, 1024]⟩ : Shape).Idx → EReal)
    (b : Fin 32) (o i : Fin 1024) : EReal :=
  mean (ix2 o i) + noise (ix3 b o i) * Ideal.exp (Ideal.ofBits .f32 0x3F000000#32 * logvar (ix2 o i))

/-- The layer's output at `(b, l, o)`: row `l` of batch `b` of `x` against row `o` of that batch's sampled weight,
    summed over the input features, plus the bias of feature `o`. -/
def out (x : (⟨3, ![32, 512, 1024]⟩ : Shape).Idx → EReal) (mean logvar : (⟨2, ![1024, 1024]⟩ : Shape).Idx → EReal)
    (bias : (⟨1, ![1024]⟩ : Shape).Idx → EReal) (noise : (⟨3, ![32, 1024, 1024]⟩ : Shape).Idx → EReal)
    (b : Fin 32) (l : Fin 512) (o : Fin 1024) : EReal :=
  (∑ k : Fin 1024, x (ix3 b l k) * weight mean logvar noise b o k) + bias (ix1 o)

/-- The whole output array, index by index. -/
def G (x : (⟨3, ![32, 512, 1024]⟩ : Shape).Idx → EReal) (mean logvar : (⟨2, ![1024, 1024]⟩ : Shape).Idx → EReal)
    (bias : (⟨1, ![1024]⟩ : Shape).Idx → EReal) (noise : (⟨3, ![32, 1024, 1024]⟩ : Shape).Idx → EReal) :
    (⟨3, ![32, 512, 1024]⟩ : Shape).Idx → EReal :=
  fun j => out x mean logvar bias noise (j 0) (j 1) (j 2)

theorem G_ix3 (x : (⟨3, ![32, 512, 1024]⟩ : Shape).Idx → EReal) (mean logvar : (⟨2, ![1024, 1024]⟩ : Shape).Idx → EReal)
    (bias : (⟨1, ![1024]⟩ : Shape).Idx → EReal) (noise : (⟨3, ![32, 1024, 1024]⟩ : Shape).Idx → EReal)
    (b : Fin 32) (l : Fin 512) (o : Fin 1024) :
    G x mean logvar bias noise (ix3 b l o) = out x mean logvar bias noise b l o := rfl

end Cert.SampledLinear

end
-- ==== Proof.RefValue.lean ====
/-
  The reference computes the sampled linear layer.

  jnp builds the whole sampled weight `w[b, o, i] = mean[o, i] + noise[b, o, i] · exp(½ · logvar[o, i])` (the two
  `[O, I]` arrays broadcast along the batch axis), contracts `x[b, l, ·]` with `w[b, o, ·]` batch by batch, and adds
  the bias broadcast along batch and row. Read at an index `(b, l, o)` every broadcast is a projection of the
  index and the contraction is the sum over the input feature: exactly `SampledLinear.out`.
-/
import proofs.«107312_j7292854469138_1_alg».proof.Proof.Gen.ReferenceIdeal.Read
import proofs.«107312_j7292854469138_1_alg».proof.Proof.SampledLinear

noncomputable section

open scoped BigOperators

namespace Cert.ReferenceIdeal.RefValue

open Cert.ReferenceIdeal Cert.ReferenceIdeal.Read Idealize.ShloMosaic Idealize.ShloMosaic.ValueIdx

/-- The left operand of the contraction at `(b, l, o)` and input feature `k` is `x[b, l, k]`. -/
theorem lidx_eq (b : Fin 32) (l : Fin 512) (o k : Fin 1024) : lidx_main_v9 (ix3 b l o) k = ix3 b l k :=
  funext fun a => match a with | ⟨0, _⟩ => rfl | ⟨1, _⟩ => rfl | ⟨2, _⟩ => rfl

/-- The right operand is the sampled weight at `[b, o, k]`. -/
theorem ridx_eq (b : Fin 32) (l : Fin 512) (o k : Fin 1024) : ridx_main_v9 (ix3 b l o) k = ix3 b o k :=
  funext fun a => match a with | ⟨0, _⟩ => rfl | ⟨1, _⟩ => rfl | ⟨2, _⟩ => rfl

/-- The mean, broadcast along the batch axis, is read at `[o, k]`. -/
theorem mean_idx (b : Fin 32) (o k : Fin 1024) : idx_main_v6 (idx_main_v7 (ix3 b o k)) = ix2 o k :=
  funext fun a => match a with | ⟨0, _⟩ => rfl | ⟨1, _⟩ => rfl

/-- So is the standard deviation `exp(½ · logvar)`. -/
theorem std_idx (b : Fin 32) (o k : Fin 1024) : idx_main_v3 (idx_main_v4 (ix3 b o k)) = ix2 o k :=
  funext fun a => match a with | ⟨0, _⟩ => rfl | ⟨1, _⟩ => rfl

/-- The bias, broadcast along batch and row, is read at `[o]`. -/
theorem bias_idx (b : Fin 32) (l : Fin 512) (o : Fin 1024) : idx_main_v10 (idx_main_v11 (ix3 b l o)) = ix1 o :=
  funext fun a => match a with | ⟨0, _⟩ => rfl

/-- The sampled weight jnp builds, at `[b, o, k]`. -/
theorem weight_apply (x1 x2 : S1024x1024.Idx → EReal) (x4 : S32x1024x1024.Idx → EReal) (b : Fin 32) (o k : Fin 1024) :
    val_main_v8 (F := Ideal) x1 x2 x4 (ix3 b o k) = SampledLinear.weight x1 x2 x4 b o k := by
  rw [val_main_v8_apply, val_main_v7_apply, val_main_v6_apply, val_main_v5_apply, val_main_v4_apply, val_main_v3_apply,
    val_main_v2_apply, val_main_v1_apply, val_main_v0_apply, val_main_cst_apply, mean_idx, std_idx]
  rfl

/-- The reference's result array is the sampled linear layer of its arguments. -/
theorem result_eq (x0 : S32x512x1024.Idx → EReal) (x1 x2 : S1024x1024.Idx → EReal) (x3 : S1024.Idx → EReal)
    (x4 : S32x1024x1024.Idx → EReal) :
    val_main_v12 (F := Ideal) x0 x1 x2 x3 x4 = SampledLinear.G x0 x1 x2 x3 x4 := by
  funext i
  obtain ⟨b, l, o, rfl⟩ : ∃ (b : Fin 32) (l : Fin 512) (o : Fin 1024), i = ix3 b l o := ⟨i 0, i 1, i 2, eq_ix3 i⟩
  rw [val_main_v12_apply, val_main_v9_apply, val_main_v11_apply, val_main_v10_apply, bias_idx, SampledLinear.G_ix3]
  show (∑ k : Fin 1024, x0 (lidx_main_v9 (ix3 b l o) k) * val_main_v8 (F := Ideal) x1 x2 x4 (ridx_main_v9 (ix3 b l o) k))
    + x3 (ix1 o) = _
  unfold SampledLinear.out
  congr 1
  refine Finset.sum_congr rfl fun k _ => ?_
  rw [lidx_eq, ridx_eq, weight_apply]

end Cert.ReferenceIdeal.RefValue

end
-- ==== Proof.Body.lean ====
/-
  The kernel body's two stored values, read at an index over the extended reals.

  The body stores twice. At the first row tile of a batch it writes the sampled weight into its scratch:
  `mean + noise_b · exp(½ · logvar)`, element by element (the noise block carries a leading unit axis, the narrowing to
  bf16 is the identity on extended reals). At every tile it writes the output block: the 256 rows of `x` against the
  1024 rows of the scratch, contracted over the input feature into a zero accumulator — so just the sum —, plus the
  bias row broadcast over the 256 rows.
-/
import proofs.«107312_j7292854469138_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The contraction: row `r` of the left operand against row `o` of the right -/

theorem lhs_rows_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_rows_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_rows_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_rows_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Both operands are contracted along their LAST axis: entry `(r, o)` of the product into a zero accumulator is
    `∑ₖ a[r, k] · w[o, k]`. -/
theorem matmul_rows (a : FVec Ideal S256x1024 .bf16) (w : FVec Ideal S1024x1024 .bf16) (r : Fin 256) (o : Fin 1024) :
    matmul dot_S256x1024_S1024x1024_S256x1024_1_1_0_0_n_n none a w (constant (F := Ideal) S256x1024 .f32 0x00000000#32) (ix2 r o)
      = ∑ k : Fin 1024, a (ix2 r k) * w (ix2 o k) := by
  refine (Ideal.matmul_constant_zero_apply dot_S256x1024_S1024x1024_S256x1024_1_1_0_0_n_n none a w (ix2 r o)).trans ?_
  rw [← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r o) ((ValueIdx.contrEquiv1 dot_S256x1024_S1024x1024_S256x1024_1_1_0_0_n_n 1024 rfl rfl).symm k) = ix2 r k := funext fun a => Fin.ext (by
    match a with
    | ⟨0, _⟩ => exact lhs_rows_0 _ _
    | ⟨1, _⟩ => exact (lhs_rows_1 _ _).trans hk)
  have er : dot_S256x1024_S1024x1024_S256x1024_1_1_0_0_n_n.rhsIdx (ix2 r o) ((ValueIdx.contrEquiv1 dot_S256x1024_S1024x1024_S256x1024_1_1_0_0_n_n 1024 rfl rfl).symm k) = ix2 o k := funext fun a => Fin.ext (by
    match a with
    | ⟨0, _⟩ => exact rhs_rows_0 _ _
    | ⟨1, _⟩ => exact (rhs_rows_1 _ _).trans hk)
  rw [el, er]

/-! ## The two stored values -/

/-- What the reset stores into the scratch, at `[o, i]`: `mean[o, i] + noise[0, o, i] · exp(½ · logvar[o, i])` of the
    three loaded blocks. -/
theorem weight_pay_apply (lv mu : Vec Ideal S1024x1024 .f32) (nz : Vec Ideal S1x1024x1024 .f32) (o i : Fin 1024) :
    k0_pay1 (F := Ideal) lv mu nz (ix2 o i)
      = mu (ix2 o i) + nz (ix3 (0 : Fin 1) o i) * Ideal.exp (Ideal.ofBits .f32 0x3F000000#32 * lv (ix2 o i)) := by
  unfold k0_pay1
  rw [shapeCast_self]
  show mu (ix2 o i) + shapeCast S1024x1024 nz shapeCasts_S1x1024x1024_S1024x1024 (ix2 o i)
      * Ideal.exp (Ideal.ofBits .f32 0x3F000000#32 * lv (ix2 o i)) = _
  rw [shapeCast_1ab_ab_apply]

/-- What every tile stores into the output block, at `[0, r, o]`: `(∑ₖ x[0, r, k] · w[o, k]) + bias[0, o]` of the loaded
    `x` block, the scratch `w` and the bias row. -/
theorem out_pay_apply (xb : Vec Ideal S1x256x1024 .f32) (w : Vec Ideal S1024x1024 .bf16) (bs : Vec Ideal S1x1024 .f32)
    (r : Fin 256) (o : Fin 1024) :
    k0_pay2 (F := Ideal) xb w bs (ix3 (0 : Fin 1) r o)
      = (∑ k : Fin 1024, xb (ix3 (0 : Fin 1) r k) * w (ix2 o k)) + bs (ix2 (0 : Fin 1) o) := by
  unfold k0_pay2
  rw [shapeCast_ab_1ab_apply, addf_apply, broadcastTo_1b_ab_apply, shapeCast_self, matmul_rows]
  congr 1
  refine Finset.sum_congr rfl fun k _ => ?_
  rw [truncf_apply, shapeCast_1ab_ab_apply]

end Cert.KernelIdeal.Body

end
-- ==== Proof.Pieces.lean ====
/-
  What each of the body's two control cases leaves behind, as values of the loaded blocks.

  At the first row tile of a batch the body first overwrites the whole scratch with the sampled weight of its three
  loaded blocks, then reads the scratch BACK for the product: the output block is the product of the `x` block with
  the weight just stored. At a later tile it stores nothing into the scratch and multiplies by whatever the scratch
  held on entry. Each store covers its buffer whole, from offset zero, so a buffer's contents afterwards are the
  stored value itself and a load of a whole buffer is its contents.
-/
import proofs.«107312_j7292854469138_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the scratch ends holding the sampled weight of the loaded log-variance, mean and noise
    blocks. -/
theorem scratch_A (c : Dev nD) (i : grid0.Coords) (a2 : Memref sig .tc .vmem S1x256x1024 .f32) (h2 : a2.IsWhole) (a3 : Memref sig .tc .vmem S1024x1024 .f32) (h3 : a3.IsWhole) (a4 : Memref sig .tc .vmem S1024x1024 .f32) (h4 : a4.IsWhole) (a5 : Memref sig .tc .vmem S1x1024x1024 .f32) (h5 : a5.IsWhole) (a6 : Memref sig .tc .vmem S1x1024 .f32) (h6 : a6.IsWhole) (a7 : Memref sig .tc .vmem S1x256x1024 .f32) (h7 : a7.IsWhole) (a8 : Memref sig .tc .vmem S1024x1024 .bf16) (h8 : a8.IsWhole) (hc : cond0_0 i)
    (x0 : Vec F S1x256x1024 .f32) (x1 : Vec F S1024x1024 .f32) (x2 : Vec F S1024x1024 .f32) (x3 : Vec F S1x1024x1024 .f32) (x4 : Vec F S1x1024 .f32) :
    sout0_A_0 c i a2 h2 a3 h3 a4 h4 a5 h5 a6 h6 a7 h7 a8 h8 hc x0 x1 x2 x3 x4 = k0_pay1 x2 x1 x3 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h3.read_unread, h4.read_unread, h5.read_unread, View.ld_unit_zero (S := S1024x1024) hz2,
    View.ld_unit_zero (S := S1x1024x1024) hz3]

/-- First tile of a batch: the output block is the product of the `x` block with the weight the same run has just
    stored (read back from the scratch), plus the bias row. -/
theorem out_A (c : Dev nD) (i : grid0.Coords) (a2 : Memref sig .tc .vmem S1x256x1024 .f32) (h2 : a2.IsWhole) (a3 : Memref sig .tc .vmem S1024x1024 .f32) (h3 : a3.IsWhole) (a4 : Memref sig .tc .vmem S1024x1024 .f32) (h4 : a4.IsWhole) (a5 : Memref sig .tc .vmem S1x1024x1024 .f32) (h5 : a5.IsWhole) (a6 : Memref sig .tc .vmem S1x1024 .f32) (h6 : a6.IsWhole) (a7 : Memref sig .tc .vmem S1x256x1024 .f32) (h7 : a7.IsWhole) (a8 : Memref sig .tc .vmem S1024x1024 .bf16) (h8 : a8.IsWhole) (hc : cond0_0 i)
    (x0 : Vec F S1x256x1024 .f32) (x1 : Vec F S1024x1024 .f32) (x2 : Vec F S1024x1024 .f32) (x3 : Vec F S1x1024x1024 .f32) (x4 : Vec F S1x1024 .f32) :
    out0_A_5 c i a2 h2 a3 h3 a4 h4 a5 h5 a6 h6 a7 h7 a8 h8 hc x0 x1 x2 x3 x4 = k0_pay2 x0 (k0_pay1 x2 x1 x3) x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz3]
  simp only [View.readAt_eq_ld, h2.read_unread, h3.read_unread, h4.read_unread, h5.read_unread, h6.read_unread,
    View.ld_unit_zero (S := S1024x1024) hz2, View.ld_unit_zero (S := S1x1024x1024) hz3,
    View.ld_unit_zero (S := S1x256x1024) hz3, View.ld_unit_zero (S := S1x1024) hz2,
    View.readCov_unit_zero (S := S1024x1024) _ hz2]

/-- A later tile: the output block is the product of the `x` block with what the scratch held on entry, plus the
    bias row. -/
theorem out_B (c : Dev nD) (i : grid0.Coords) (a2 : Memref sig .tc .vmem S1x256x1024 .f32) (h2 : a2.IsWhole) (a3 : Memref sig .tc .vmem S1024x1024 .f32) (h3 : a3.IsWhole) (a4 : Memref sig .tc .vmem S1024x1024 .f32) (h4 : a4.IsWhole) (a5 : Memref sig .tc .vmem S1x1024x1024 .f32) (h5 : a5.IsWhole) (a6 : Memref sig .tc .vmem S1x1024 .f32) (h6 : a6.IsWhole) (a7 : Memref sig .tc .vmem S1x256x1024 .f32) (h7 : a7.IsWhole) (a8 : Memref sig .tc .vmem S1024x1024 .bf16) (h8 : a8.IsWhole) (hc : ¬cond0_0 i)
    (x0 : Vec F S1x256x1024 .f32) (x1 : Vec F S1024x1024 .f32) (x2 : Vec F S1024x1024 .f32) (x3 : Vec F S1x1024x1024 .f32) (x4 : Vec F S1x1024 .f32) (xs0 : Vec F S1024x1024 .bf16) :
    out0_B_5 c i a2 h2 a3 h3 a4 h4 a5 h5 a6 h6 a7 h7 a8 h8 hc x0 x1 x2 x3 x4 xs0 = k0_pay2 x0 xs0 x4 := by
  unfold out0_B_5
  rw [View.read_writes_eq_canon _ _ _ (cover0_B_5 c i a2 h2 a3 h3 a4 h4 a5 h5 a6 h6 a7 h7 a8 h8 hc x0 x1 x2 x3 x4 xs0)]
  unfold kernelRun0_B
  dsimp only
  sl_unfold_words
  rw [View.canon_unit_zero hz3]
  simp only [View.readAt_eq_ld, h2.read_unread, h6.read_unread, h8.read_unread,
    View.ld_unit_zero (S := S1024x1024) hz2, View.ld_unit_zero (S := S1x256x1024) hz3,
    View.ld_unit_zero (S := S1x1024) hz2]

end Cert.KernelIdeal.Pieces

end
-- ==== Proof.Blocks.lean ====
/-
  The grid and what each window shows the body at a point.

  The grid is 32 batches × 2 row tiles, walked row-major: point `t` is batch `t / 2`, tile `t % 2`. At that point the
  `x` window shows rows `256·(t % 2) … 256·(t % 2) + 255` of batch `t / 2`, the noise window the whole `[1024, 1024]`
  slab of batch `t / 2`, and the mean, log-variance and bias windows their whole arrays, whatever the point. The bias
  row the kernel sees is the host's reshape of the bias vector to `[1, 1024]`.
-/
import proofs.«107312_j7292854469138_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The index maps, decided once over the 64 points -/

theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val / 2 ∧ win0_5.index t (1 : Fin 3) = t.val % 2 ∧ win0_5.index t (2 : Fin 3) = 0 :=
  (by decide +kernel : ∀ t : Fin grid0.N, _)

/-- The batch element point `t` works on. -/
def batch (t : Fin cfg0.N) : Fin 32 := ⟨t.val / 2, by have h1 := t.isLt; have h2 : cfg0.N = 64 := N_0; omega⟩

/-- Row `r` of point `t`'s tile, as a row of the batch element. -/
def row (t : Fin cfg0.N) (r : Fin 256) : Fin 512 := ⟨256 * (t.val % 2) + r.val, by have := r.isLt; omega⟩

/-! ## The arrays as the region finds them, and the blocks, at their literal types -/

abbrev xArr (c : Dev nD) : Vec F S32x512x1024 .f32 := V m c main_arg0
abbrev meanArr (c : Dev nD) : Vec F S1024x1024 .f32 := V m c main_arg1
abbrev logvarArr (c : Dev nD) : Vec F S1024x1024 .f32 := V m c main_arg2
abbrev noiseArr (c : Dev nD) : Vec F S32x1024x1024 .f32 := V m c main_arg4
abbrev biasRow (c : Dev nD) : Vec F S1x1024 .f32 := V m c main_v0
abbrev biasVec (c : Dev nD) : Vec F S1024 .f32 := m ((c : Thread nD τ).loc main_arg3)

abbrev xBlk (c : Dev nD) (t : Fin cfg0.N) : Vec F S1x256x1024 .f32 := iblk m c 0 t
abbrev meanBlk (c : Dev nD) (t : Fin cfg0.N) : Vec F S1024x1024 .f32 := iblk m c 1 t
abbrev logvarBlk (c : Dev nD) (t : Fin cfg0.N) : Vec F S1024x1024 .f32 := iblk m c 2 t
abbrev noiseBlk (c : Dev nD) (t : Fin cfg0.N) : Vec F S1x1024x1024 .f32 := iblk m c 3 t
abbrev biasBlk (c : Dev nD) (t : Fin cfg0.N) : Vec F S1x1024 .f32 := iblk m c 4 t

/-- The `x` block at point `t`, at `[0, r, k]`, is `x[t / 2, 256·(t % 2) + r, k]`. -/
theorem xBlk_apply (c : Dev nD) (t : Fin cfg0.N) (r : Fin 256) (k : Fin 1024) :
    xBlk m c t (ix3 (0 : Fin 1) r k) = xArr m c (ix3 (batch t) (row t r) k) := by
  obtain ⟨e0, e1, e2, -⟩ := idx_facts t
  unfold xBlk iblk
  rw [View.read_apply]
  show V m c main_arg0 _ = V m c main_arg0 _
  congr 1
  funext a
  apply Fin.ext
  match a with
  | ⟨0, _⟩ => show win0_0.index t (0 : Fin 3) * 1 + 1 * 0 = t.val / 2; rw [e0]; omega
  | ⟨1, _⟩ => show win0_0.index t (1 : Fin 3) * 256 + 1 * r.val = 256 * (t.val % 2) + r.val; rw [e1]; omega
  | ⟨2, _⟩ => show win0_0.index t (2 : Fin 3) * 1024 + 1 * k.val = k.val; rw [e2]; omega

/-- The mean block is the whole mean array at every point. -/
theorem meanBlk_eq (c : Dev nD) (t : Fin cfg0.N) : meanBlk m c t = meanArr m c := by
  obtain ⟨-, -, -, e0, e1, -⟩ := idx_facts t
  funext j
  unfold meanBlk iblk
  rw [View.read_apply]
  show V m c main_arg1 _ = V m c main_arg1 j
  congr 1
  funext a
  apply Fin.ext
  match a with
  | ⟨0, _⟩ => show win0_1.index t (0 : Fin 2) * 1024 + 1 * (j 0).val = (j 0).val; rw [e0]; omega
  | ⟨1, _⟩ => show win0_1.index t (1 : Fin 2) * 1024 + 1 * (j 1).val = (j 1).val; rw [e1]; omega

/-- The log-variance block is the whole log-variance array at every point. -/
theorem logvarBlk_eq (c : Dev nD) (t : Fin cfg0.N) : logvarBlk m c t = logvarArr m c := by
  obtain ⟨-, -, -, -, -, e0, e1, -⟩ := idx_facts t
  funext j
  unfold logvarBlk iblk
  rw [View.read_apply]
  show V m c main_arg2 _ = V m c main_arg2 j
  congr 1
  funext a
  apply Fin.ext
  match a with
  | ⟨0, _⟩ => show win0_2.index t (0 : Fin 2) * 1024 + 1 * (j 0).val = (j 0).val; rw [e0]; omega
  | ⟨1, _⟩ => show win0_2.index t (1 : Fin 2) * 1024 + 1 * (j 1).val = (j 1).val; rw [e1]; omega

/-- The noise block at point `t`, at `[0, o, i]`, is `noise[t / 2, o, i]`. -/
theorem noiseBlk_apply (c : Dev nD) (t : Fin cfg0.N) (o i : Fin 1024) :
    noiseBlk m c t (ix3 (0 : Fin 1) o i) = noiseArr m c (ix3 (batch t) o i) := by
  obtain ⟨-, -, -, -, -, -, -, e0, e1, e2, -⟩ := idx_facts t
  unfold noiseBlk iblk
  rw [View.read_apply]
  show V m c main_arg4 _ = V m c main_arg4 _
  congr 1
  funext a
  apply Fin.ext
  match a with
  | ⟨0, _⟩ => show win0_3.index t (0 : Fin 3) * 1 + 1 * 0 = t.val / 2; rw [e0]; omega
  | ⟨1, _⟩ => show win0_3.index t (1 : Fin 3) * 1024 + 1 * o.val = o.val; rw [e1]; omega
  | ⟨2, _⟩ => show win0_3.index t (2 : Fin 3) * 1024 + 1 * i.val = i.val; rw [e2]; omega

/-- The bias block is the whole bias row at every point. -/
theorem biasBlk_eq (c : Dev nD) (t : Fin cfg0.N) : biasBlk m c t = biasRow m c := by
  obtain ⟨-, -, -, -, -, -, -, -, -, -, e0, e1, -⟩ := idx_facts t
  funext j
  unfold biasBlk iblk
  rw [View.read_apply]
  show V m c main_v0 _ = V m c main_v0 j
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 1024 + 1 * (j 1).val = (j 1).val; rw [e1]; omega

/-- The bias row is the bias vector with a leading unit axis: at `[0, o]` it holds `bias[o]`. -/
theorem biasRow_apply (c : Dev nD) (o : Fin 1024) : biasRow m c (ix2 (0 : Fin 1) o) = biasVec m c (ix1 o) := by
  have e : (V m c main_v0 : S1x1024.Idx → Elt F .f32)
      = shapeCast S1x1024 (m ((c : Thread nD τ).loc main_arg3)) shapeCasts_S1024_S1x1024 := by
    dsimp only [V, hostOps0]; after_results; rfl
  show (V m c main_v0 : S1x1024.Idx → Elt F .f32) (ix2 (0 : Fin 1) o) = _
  rw [e, shapeCast_a_1a_apply]

/-- Where point `t`'s output block puts its entry `[0, r, o]` in the result array: at `[t / 2, 256·(t % 2) + r, o]`. -/
theorem out_emb (t : Fin cfg0.N) (r : Fin 256) (o : Fin 1024) :
    ((cfg0.win 5).blk t).view.emb (ix3 (0 : Fin 1) r o) = ix3 (batch t) (row t r) o := by
  obtain ⟨-, -, -, -, -, -, -, -, -, -, -, -, e0, e1, e2⟩ := idx_facts t
  funext a
  apply Fin.ext
  match a with
  | ⟨0, _⟩ => show win0_5.index t (0 : Fin 3) * 1 + 1 * 0 = t.val / 2; rw [e0]; omega
  | ⟨1, _⟩ => show win0_5.index t (1 : Fin 3) * 256 + 1 * r.val = 256 * (t.val % 2) + r.val; rw [e1]; omega
  | ⟨2, _⟩ => show win0_5.index t (2 : Fin 3) * 1024 + 1 * o.val = o.val; rw [e2]; omega

end Cert.KernelIdeal.Blocks

end
-- ==== Proof.Tiles.lean ====
/-
  What the kernel's run leaves in the result array, over the extended reals.

  The scratch is reset at the first row tile of every batch and only read at the second, and the two tiles of a batch
  are consecutive points: so after ANY point `t` the scratch holds the sampled weight of batch `t / 2` (by induction on
  the point: a reset point writes it from its own blocks; a later point leaves what the point before left, which is the
  same batch's). Hence every point's output block is rows `256·(t % 2) …` of batch `t / 2` of the sampled linear layer,
  whether the weight it multiplied by was stored in the same run or carried over. The 64 blocks tile the result array,
  so the array ends holding the layer's whole output.
-/
import proofs.«107312_j7292854469138_1_alg».proof.Proof.Gen.KernelIdeal.Value
import proofs.«107312_j7292854469138_1_alg».proof.Proof.SampledLinear
import proofs.«107312_j7292854469138_1_alg».proof.Proof.Body
import proofs.«107312_j7292854469138_1_alg».proof.Proof.Pieces
import proofs.«107312_j7292854469138_1_alg».proof.Proof.Blocks

noncomputable section

open scoped BigOperators

namespace Cert.KernelIdeal.Tiles

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The sampled weight of batch `b`, of the arrays as the region finds them. -/
abbrev wspec (c : Dev nD) (b : Fin 32) (o i : Fin 1024) : EReal :=
  SampledLinear.weight (meanArr m c) (logvarArr m c) (noiseArr m c) b o i

/-- The layer's whole output, of the arrays as the region finds them. -/
abbrev spec (c : Dev nD) : S32x512x1024.Idx → EReal :=
  SampledLinear.G (xArr m c) (meanArr m c) (logvarArr m c) (biasVec m c) (noiseArr m c)

/-! ## The scratch after each point -/

/-- The weight a point computes from its own blocks is its batch's sampled weight. -/
theorem fresh_weight (c : Dev nD) (t : Fin cfg0.N) (o i : Fin 1024) :
    k0_pay1 (F := Ideal) (logvarBlk m c t) (meanBlk m c t) (noiseBlk m c t) (ix2 o i) = wspec m c (batch t) o i := by
  rw [Body.weight_pay_apply (logvarBlk m c t) (meanBlk m c t) (noiseBlk m c t) o i, meanBlk_eq, logvarBlk_eq,
    noiseBlk_apply]
  rfl

/-- After point `n` the scratch holds the sampled weight of batch `n / 2`. -/
theorem scratch_eq (c : Dev nD) : ∀ (n : ℕ) (h : n < cfg0.N) (o i : Fin 1024),
    (outsAt0 m c n h).2 (ix2 o i) = wspec m c (batch ⟨n, h⟩) o i
  | 0, h, o, i => by
    rw [outsAt0_A m c ⟨0, h⟩ rfl]
    dsimp only
    refine (congrFun (Pieces.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl)
      (xBlk m c ⟨0, h⟩) (meanBlk m c ⟨0, h⟩) (logvarBlk m c ⟨0, h⟩) (noiseBlk m c ⟨0, h⟩) (biasBlk m c ⟨0, h⟩)) (ix2 o i)).trans ?_
    exact fresh_weight m c ⟨0, h⟩ o i
  | n + 1, h, o, i => by
    by_cases h0 : (n + 1) % 2 = 0
    · rw [outsAt0_A m c ⟨n + 1, h⟩ h0]
      dsimp only
      refine (congrFun (Pieces.scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0)
        (xBlk m c ⟨n + 1, h⟩) (meanBlk m c ⟨n + 1, h⟩) (logvarBlk m c ⟨n + 1, h⟩) (noiseBlk m c ⟨n + 1, h⟩) (biasBlk m c ⟨n + 1, h⟩)) (ix2 o i)).trans ?_
      exact fresh_weight m c ⟨n + 1, h⟩ o i
    · rw [outsAt0_B m c ⟨n + 1, h⟩ h0]
      dsimp only
      unfold sout0_B_0
      show (outsAt0 m c n (Nat.lt_of_succ_lt h)).2 (ix2 o i) = _
      rw [scratch_eq c n (Nat.lt_of_succ_lt h) o i]
      have hb : batch ⟨n, Nat.lt_of_succ_lt h⟩ = batch ⟨n + 1, h⟩ := Fin.ext (by show n / 2 = (n + 1) / 2; omega)
      rw [hb]

/-! ## The output block of each point -/

/-- Point `t`'s output block at `[0, r, o]` is the layer's output at batch `t / 2`, row `256·(t % 2) + r`, feature `o`. -/
theorem tile_eq (c : Dev nD) (t : Fin cfg0.N) (r : Fin 256) (o : Fin 1024) :
    (outsAt0 m c t.val t.isLt).1 (ix3 (0 : Fin 1) r o)
      = SampledLinear.out (xArr m c) (meanArr m c) (logvarArr m c) (biasVec m c) (noiseArr m c) (batch t) (row t r) o := by
  by_cases h0 : t.val % 2 = 0
  · rw [outsAt0_A m c t h0]
    dsimp only
    refine (congrFun (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0)
      (xBlk m c t) (meanBlk m c t) (logvarBlk m c t) (noiseBlk m c t) (biasBlk m c t)) (ix3 (0 : Fin 1) r o)).trans ?_
    rw [Body.out_pay_apply (xBlk m c t) (k0_pay1 (logvarBlk m c t) (meanBlk m c t) (noiseBlk m c t)) (biasBlk m c t) r o]
    unfold SampledLinear.out
    congr 1
    · refine Finset.sum_congr rfl fun k _ => ?_
      rw [xBlk_apply, fresh_weight]
    · rw [biasBlk_eq, biasRow_apply]
  · rw [outsAt0_B m c t h0]
    dsimp only
    refine (congrFun (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h))
      (xBlk m c t) (meanBlk m c t) (logvarBlk m c t) (noiseBlk m c t) (biasBlk m c t) (outsAt0 m c (t.val - 1) (Nat.lt_of_le_of_lt (Nat.sub_le _ _) t.isLt)).2) (ix3 (0 : Fin 1) r o)).trans ?_
    rw [Body.out_pay_apply (xBlk m c t) (outsAt0 m c (t.val - 1) (Nat.lt_of_le_of_lt (Nat.sub_le _ _) t.isLt)).2 (biasBlk m c t) r o]
    unfold SampledLinear.out
    congr 1
    · refine Finset.sum_congr rfl fun k _ => ?_
      have hb : batch ⟨t.val - 1, Nat.lt_of_le_of_lt (Nat.sub_le _ _) t.isLt⟩ = batch t :=
        Fin.ext (by show (t.val - 1) / 2 = t.val / 2; omega)
      rw [xBlk_apply, scratch_eq m c (t.val - 1) (Nat.lt_of_le_of_lt (Nat.sub_le _ _) t.isLt) o k, hb]
    · rw [biasBlk_eq, biasRow_apply]

/-- The same at any index of the block: the layer's output where the block puts that index in the result array. -/
theorem tile_at (c : Dev nD) (t : Fin cfg0.N) (y : S1x256x1024.Idx) :
    (outsAt0 m c t.val t.isLt).1 y = spec m c (((cfg0.win 5).blk t).view.emb y) := by
  obtain ⟨u, r, o, rfl⟩ : ∃ (u : Fin 1) (r : Fin 256) (o : Fin 1024), y = ix3 u r o := ⟨y 0, y 1, y 2, eq_ix3 y⟩
  obtain rfl : u = 0 := Subsingleton.elim _ _
  rw [tile_eq, out_emb]
  rfl

/-- What point `t` writes back is block `t` of the layer's output. -/
theorem flushed_eq (c : Dev nD) (t : Fin cfg0.N) :
    (dats m 0 c).flushed 5 t = ((cfg0.win 5).blk t).view.read (Elt Ideal) (spec m c) := by
  rw [Value.flushed5]
  funext y
  exact tile_at m c t y

/-! ## The blocks tile the result array -/

/-- An index of the result array is in point `t`'s block iff each coordinate is in the block's range on its axis. -/
theorem mem_blk (t : Fin cfg0.N) (i : S32x512x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v1).slice (win0_5.rect t)).set ↔ _
  rw [View.set_slice_whole, Rect.mem_set_unit]
  exact Iff.rfl

/-- Index `[b, l, o]` is in the block of point `2·b + l / 256`. -/
theorem covered (i : S32x512x1024.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 1024 := (i 2).isLt
  have hN : cfg0.N = 64 := N_0
  obtain ⟨t, ht⟩ : ∃ t : Fin cfg0.N, t.val = 2 * (i 0).val + (i 1).val / 256 := ⟨⟨_, by omega⟩, rfl⟩
  obtain ⟨-, -, -, -, -, -, -, -, -, -, -, -, e0, e1, e2⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 256 ≤ (i 1).val ∧ (i 1).val < win0_5.index t (1 : Fin 3) * 256 + 256
    rw [e1]; omega
  | ⟨2, _⟩ =>
    show win0_5.index t (2 : Fin 3) * 1024 ≤ (i 2).val ∧ (i 2).val < win0_5.index t (2 : Fin 3) * 1024 + 1024
    rw [e2]; omega

/-- So the result array ends holding the layer's whole output. -/
theorem final (c : Dev nD) : (dats m 0 c).arrAt 5 cfg0.N = spec m c :=
  (dats m 0 c).arrAt_eq_of_cover 5 (spec m c) (fun t _ => flushed_eq m c t) covered

/-- No host operation before the region writes an argument: the layer's output of the arrays as the region finds them is
    its output of the arguments as launched. -/
theorem spec_eq (c : Dev nD) : spec m c = SampledLinear.G (m ((c : Thread nD τ).loc main_arg0))
    (m ((c : Thread nD τ).loc main_arg1)) (m ((c : Thread nD τ).loc main_arg2)) (m ((c : Thread nD τ).loc main_arg3))
    (m ((c : Thread nD τ).loc main_arg4)) := by
  show SampledLinear.G (V m c main_arg0) (V m c main_arg1) (V m c main_arg2) (m ((c : Thread nD τ).loc main_arg3))
    (V m c main_arg4) = _
  rw [V_main_arg0, V_main_arg1, V_main_arg2, V_main_arg4]

/-- The kernel's run: the result array at the sampled linear layer of the arguments, the arguments unchanged. -/
theorem run : θ_run defs (onTc (τ := τ) (main (F := Ideal))) ⟨m, fun _ => 0, ρ⟩ fun r => ∀ c : Dev nD,
      r.2.mem ((c : Thread nD τ).loc main_v1) = SampledLinear.G (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (spec_eq m c)), (h c).2⟩)
    (Value.run_blocks m ρ)

end Cert.KernelIdeal.Tiles

end
-- ==== Proof.lean ====
/-
  A linear layer with a weight sampled per batch element, tiled along the rows: the kernel against jnp.

  Both programs compute `y[b, l, o] = (∑ᵢ x[b, l, i] · W_b[o, i]) + bias[o]` with
  `W_b[o, i] = mean[o, i] + noise[b, o, i] · exp(½ · logvar[o, i])` (Proof/SampledLinear.lean). jnp materialises
  `W` for all batches and contracts batch by batch (Proof/RefValue.lean). The kernel walks a 32 × 2 grid of
  (batch, row tile): at a batch's first tile it writes `W_b` into a scratch buffer, at both tiles it multiplies 256 rows
  of `x` by the scratch and adds the bias (Proof/Body.lean, Proof/Pieces.lean); the scratch after any point is the
  current batch's weight, so every output block is a block of the layer's output, and the blocks tile the result
  (Proof/Blocks.lean, Proof/Tiles.lean). Over the extended reals the narrowing to bf16 is the identity, the half is the
  same binary32 word on both sides, and a matrix product into a zero accumulator is the plain sum: the two results are
  one function of the arguments, with no appeal to finiteness. The ideal pass rewrote nothing, so the kernel's
  idealization is its own text.
-/
import proofs.«107312_j7292854469138_1_alg».proof.Defs
import proofs.«107312_j7292854469138_1_alg».proof.Proof.Gen.Kernel
import proofs.«107312_j7292854469138_1_alg».proof.Proof.Gen.Kernel.Skeleton
import proofs.«107312_j7292854469138_1_alg».proof.Proof.Gen.Kernel.Launch
import proofs.«107312_j7292854469138_1_alg».proof.Proof.Gen.Kernel.Points
import proofs.«107312_j7292854469138_1_alg».proof.Proof.Gen.Kernel.Frame
import proofs.«107312_j7292854469138_1_alg».proof.Proof.Gen.KernelIdeal
import proofs.«107312_j7292854469138_1_alg».proof.Proof.Gen.KernelIdeal.Skeleton
import proofs.«107312_j7292854469138_1_alg».proof.Proof.Gen.KernelIdeal.Launch
import proofs.«107312_j7292854469138_1_alg».proof.Proof.Gen.KernelIdeal.Points
import proofs.«107312_j7292854469138_1_alg».proof.Proof.Gen.KernelIdeal.Frame
import proofs.«107312_j7292854469138_1_alg».proof.Proof.Gen.ReferenceIdeal
import proofs.«107312_j7292854469138_1_alg».proof.Proof.Gen.Pre_finite_inputs
import proofs.«107312_j7292854469138_1_alg».proof.Proof.Gen.KernelIdeal.Value
import proofs.«107312_j7292854469138_1_alg».proof.Proof.Gen.ReferenceIdeal.Run
import proofs.«107312_j7292854469138_1_alg».proof.Proof.Gen.ReferenceIdeal.Read
import proofs.«107312_j7292854469138_1_alg».proof.Proof.RefValue
import proofs.«107312_j7292854469138_1_alg».proof.Proof.Tiles
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the sampled linear layer of those arguments
    in their result arrays. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
